-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S64x4096 : Shape := ⟨2, ![64, 4096]⟩
abbrev S64 : Shape := ⟨1, ![64]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4096x4096 .f32) (main_arg1 : FVec F S64x4096 .f32) (main_arg2 : FVec F S64 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4096x4096 : Shape := ⟨2, ![4096, 4096]⟩
abbrev S64x4096 : Shape := ⟨2, ![64, 4096]⟩
abbrev S64 : Shape := ⟨1, ![64]⟩
abbrev S1x4096 : Shape := ⟨2, ![1, 4096]⟩
abbrev S512x4096 : Shape := ⟨2, ![512, 4096]⟩
abbrev S4096 : Shape := ⟨1, ![4096]⟩
abbrev S1x64 : Shape := ⟨2, ![1, 64]⟩
abbrev S4096x64 : Shape := ⟨2, ![4096, 64]⟩
abbrev S256x4096 : Shape := ⟨2, ![256, 4096]⟩
abbrev S256x64 : Shape := ⟨2, ![256, 64]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S64x4096, .f32⟩
  | .hbm, ⟨2, _⟩ => ⟨S64, .f32⟩
  | .hbm, ⟨3, _⟩ => ⟨S1x4096, .f32⟩
  | .hbm, ⟨4, _⟩ => ⟨S1x4096, .f32⟩
  | .hbm, ⟨5, _⟩ => ⟨S1x64, .f32⟩
  | .hbm, ⟨6, _⟩ => ⟨S4096x64, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S1x4096, .f32⟩
  | .local _ .vmem, ⟨8, _⟩ => ⟨S64x4096, .f32⟩
  | .local _ .vmem, ⟨9, _⟩ => ⟨S1x64, .f32⟩
  | .local _ .vmem, ⟨10, _⟩ => ⟨S256x64, .f32⟩
  | .local _ .vmem, ⟨11, _⟩ => ⟨S256x64, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1x4096_S1x4096_0_0 : ∀ a, (![0, 0] : Fin 2 → Nat) a + S1x4096.size a ≤ S1x4096.size a
  h_S1x4096 : 0 < S1x4096.numel
  inb_S512x4096_S512x4096_0_0 : ∀ a, (![0, 0] : Fin 2 → Nat) a + S512x4096.size a ≤ S512x4096.size a
  h_S512x4096 : 0 < S512x4096.numel
  shapeCasts_S1x4096_S1x4096 : S1x4096.ShapeCasts S1x4096
  reduces_S512x4096_S4096 : S512x4096.Reduces [0] S4096
  shapeCasts_S4096_S1x4096 : S4096.ShapeCasts S1x4096
  shapeCasts_S64_S1x64 : S64.ShapeCasts S1x64
  inb_S256x4096_S256x4096_0_0 : ∀ a, (![0, 0] : Fin 2 → Nat) a + S256x4096.size a ≤ S256x4096.size a
  h_S256x4096 : 0 < S256x4096.numel
  broadcasts_S1x4096_S256x4096 : S1x4096.Broadcasts S256x4096
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  transposes_S64x4096_p1_0_S4096x64 : S64x4096.Transposes [1, 0] S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x4096.size a ≤ S64x4096.size a
  hwx1_3 : ∀ i : grid1.Coords, EltTy.bits .f32 = 32 ∨ (Rect.block (s := S64x4096) S64x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S4096x64.size a
  hwx1_5 : ∀ i : grid1.Coords, EltTy.bits .f32 = 32 ∨ (Rect.block (s := S4096x64) S256x64.size (cc1_transform_5 i) (hinb1_5 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x4096.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S64x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S256x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S64x4096 : Shape := ⟨2, ![64, 4096]⟩
abbrev S64 : Shape := ⟨1, ![64]⟩
abbrev S_ : Shape := ⟨0, ![]⟩
abbrev S4096 : Shape := ⟨1, ![4096]⟩
abbrev S1x4096 : Shape := ⟨2, ![1, 4096]⟩
abbrev S4096x64 : Shape := ⟨2, ![4096, 64]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S64x4096, .f32⟩
  | .hbm, ⟨2, _⟩ => ⟨S64, .f32⟩
  | .hbm, ⟨3, _⟩ => ⟨S_, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S1x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x64, .f32⟩
  | .hbm, ⟨31, _⟩ => ⟨S4096x64, .f32⟩
  | .hbm, ⟨32, _⟩ => ⟨S1x64, .f32⟩
  | .hbm, ⟨33, _⟩ => ⟨S4096x64, .f32⟩
  | .hbm, ⟨34, _⟩ => ⟨S4096x64, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  reducesTo_S4096x4096_S4096_d0 : S4096x4096.ReducesTo [0] S4096
  h_S_ : 0 < S_.numel
  bcast_S4096_S1x4096_1 : S4096.BroadcastsInDim S1x4096 (![1] : Fin 1 → Fin S1x4096.rank)
  bcast_S_S4096x4096 : S_.BroadcastsInDim S4096x4096 (![] : Fin 0 → Fin S4096x4096.rank)
  bcast_S1x4096_S4096x4096_0_1 : S1x4096.BroadcastsInDim S4096x4096 (![0, 1] : Fin 2 → Fin S4096x4096.rank)
  transposes_S64x4096_S4096x64_1_0 : S64x4096.Transposes [1, 0] S4096x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.ColumnStats.lean ====
/-
  The function both programs compute, index by index, over the extended reals, and the one law that joins their
  two arrangements of the column sums.

  For data `x` (4096 × 4096), weights `W` (64 × 4096) and bias `b` (64):
    S k = 0 + ∑ r, x (r, k)            the column sums,
    Q k = 0 + ∑ r, x (r, k)²           the column sums of squares,
    d (i, k) = log (sqrt (max (Q k − (2 · x (i, k)) · S k + 4096 · x (i, k)², 0)) + ε)
    out (i, o) = ∑ k, d (i, k) · W (o, k) + b o.
  One program sums a column over all 4096 rows at once, the other over eight consecutive tiles of 512 rows, adding
  each tile's sum to the running total. Addition of extended reals is commutative and associative, so the two are
  equal without any finiteness assumption (`sum_rows_eq_sum_tiles`).
-/
import Idealize.ShloMosaic.PureOps.Ideal
import Idealize.ShloMosaic.PureOps.Ideal.Laws
import Idealize.ShloMosaic.Lib.ValueIdx

noncomputable section

namespace Cert.LogDist

open Idealize.ShloMosaic Idealize.ShloMosaic.ValueIdx

/-- The four float literals of both programs, kept as their words: the same word on both sides is never evaluated. -/
abbrev zero : Ideal .f32 := Ideal.ofBits .f32 0x00000000#32
abbrev two : Ideal .f32 := Ideal.ofBits .f32 0x40000000#32
abbrev rows : Ideal .f32 := Ideal.ofBits .f32 0x45800000#32
abbrev eps : Ideal .f32 := Ideal.ofBits .f32 0x358637BD#32

abbrev Data : Type := (⟨2, ![4096, 4096]⟩ : Shape).Idx → Ideal .f32
abbrev Weights : Type := (⟨2, ![64, 4096]⟩ : Shape).Idx → Ideal .f32
abbrev Bias : Type := (⟨1, ![64]⟩ : Shape).Idx → Ideal .f32

/-- Column `k`'s sum over all rows, from the zero word. -/
def colSum (x : Data) (k : Fin 4096) : Ideal .f32 := zero + ∑ r : Fin 4096, x (ix2 r k)

/-- Column `k`'s sum of squares over all rows, from the zero word. -/
def colSq (x : Data) (k : Fin 4096) : Ideal .f32 := zero + ∑ r : Fin 4096, x (ix2 r k) * x (ix2 r k)

/-- The log-distance entry from given column statistics `s` (sum) and `q` (sum of squares) and the element `v`. -/
def logOf (q s v : Ideal .f32) : Ideal .f32 :=
  Ideal.log (Ideal.sqrt (max (q - two * v * s + rows * (v * v)) zero) + eps)

/-- The log-distance `d (i, k)`. -/
def logd (x : Data) (i k : Fin 4096) : Ideal .f32 := logOf (colSq x k) (colSum x k) (x (ix2 i k))

/-- The result at `(i, o)`. -/
def out (x : Data) (W : Weights) (b : Bias) (j : (⟨2, ![4096, 64]⟩ : Shape).Idx) : Ideal .f32 :=
  (∑ k : Fin 4096, logd x (j 0) k * W (ix2 (j 1) k)) + b (ix1 (j 1))

/-! ## Rows as eight tiles of 512 -/

/-- Row `512 · s + q` of tile `s`. -/
abbrev tileRow (s : Fin 8) (q : Fin 512) : Fin 4096 := ⟨512 * s.val + q.val, by have := s.isLt; have := q.isLt; omega⟩

/-- Tile `s`'s share of a sum over the rows; zero past the eighth tile (never used there). -/
def tileSum (f : Fin 4096 → Ideal .f32) (s : ℕ) : Ideal .f32 :=
  if h : s < 8 then ∑ q : Fin 512, f (tileRow ⟨s, h⟩ q) else 0

/-- A sum over the 4096 rows is the sum of the eight tiles' sums. -/
theorem sum_rows_eq_sum_tiles (f : Fin 4096 → Ideal .f32) :
    ∑ r : Fin 4096, f r = ∑ s ∈ Finset.range 8, tileSum f s := by
  rw [← Fin.sum_univ_eq_sum_range (fun s => tileSum f s) 8]
  have h1 : ∀ s : Fin 8, tileSum f s.val = ∑ q : Fin 512, f (tileRow s q) := fun s => by
    unfold tileSum; rw [dif_pos s.isLt]
  simp only [h1]
  rw [← Fintype.sum_prod_type']
  refine (Fintype.sum_equiv (finProdFinEquiv (m := 8) (n := 512)) _ _ fun p => ?_).symm
  refine congrArg f (Fin.ext ?_)
  show 512 * p.1.val + p.2.val = p.2.val + 512 * p.1.val
  omega

end Cert.LogDist

end
-- ==== Proof.StatsValue.lean ====
/-
  The first pallas_call's two results: after its eight grid points the row `[1, 4096]` it keeps in its first
  output holds, at column `k`, `0 + ∑ r, x (r, k)`, and the second `0 + ∑ r, x (r, k)²`, whatever array `x` the region
  finds in its input window.

  Point `n` sees rows `512 n … 512 n + 511` of `x`. The first point stores zeros, reads them back and adds the tile's
  column sums; every later point adds its tile's column sums to what the point before left. So after point `n` the
  row holds `0 + ∑ s ≤ n, (tile s's column sum)` — by induction on the point — and after the last point the sum over
  all eight tiles, which is the sum over all rows (`sum_rows_eq_sum_tiles`). Only the last point writes the row back,
  and its block is the whole `[1, 4096]` array.
-/
import proofs.«147592_j21766894256326_1_alg».proof.Proof.Gen.KernelIdeal.Frame
import proofs.«147592_j21766894256326_1_alg».proof.Proof.ColumnStats
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Stats

open Cert.KernelIdeal Cert.KernelIdeal.Gen Cert.LogDist
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## What each case of the body leaves, as the payloads of its last stores (any float instance) -/

section Pieces
variable {F : FTy → Type} [FloatOps F]

/-- A later point: the first output's buffer, holding `xo1`, ends at the sum payload of the tile and `xo1`. -/
theorem later_sum (c : Dev nD) (i : grid0.Coords) (a1 : Memref sig .tc .vmem S512x4096 .f32) (h1 : a1.IsWhole)
    (a2 : Memref sig .tc .vmem S1x4096 .f32) (h2 : a2.IsWhole) (a3 : Memref sig .tc .vmem S1x4096 .f32) (h3 : a3.IsWhole)
    (hc : ¬cond0_0 i) (x : Vec F S512x4096 .f32) (xo1 xo2 : Vec F S1x4096 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  rw [View.canon_unit_zero hz]
  simp only [View.readAt_eq_ld, h1.read_unread, h2.read_unread, View.ld_unit_zero (S := S512x4096) hz,
    View.ld_unit_zero (S := S1x4096) hz]

/-- A later point: the second output's buffer, holding `xo2`, ends at the squares payload of the tile and `xo2`. -/
theorem later_sq (c : Dev nD) (i : grid0.Coords) (a1 : Memref sig .tc .vmem S512x4096 .f32) (h1 : a1.IsWhole)
    (a2 : Memref sig .tc .vmem S1x4096 .f32) (h2 : a2.IsWhole) (a3 : Memref sig .tc .vmem S1x4096 .f32) (h3 : a3.IsWhole)
    (hc : ¬cond0_0 i) (x : Vec F S512x4096 .f32) (xo1 xo2 : Vec F S1x4096 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  rw [View.canon_unit_zero hz]
  simp only [View.readAt_eq_ld, h1.read_unread, h3.read_unread, View.ld_unit_zero (S := S512x4096) hz,
    View.ld_unit_zero (S := S1x4096) hz]

/-- The first point: the zeros it stores are read back, so the first output's buffer ends at the sum payload of the
    tile and the zero row. -/
theorem first_sum (c : Dev nD) (i : grid0.Coords) (a1 : Memref sig .tc .vmem S512x4096 .f32) (h1 : a1.IsWhole)
    (a2 : Memref sig .tc .vmem S1x4096 .f32) (h2 : a2.IsWhole) (a3 : Memref sig .tc .vmem S1x4096 .f32) (h3 : a3.IsWhole)
    (hc : cond0_0 i) (x : Vec F S512x4096 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x4096) hz, View.readCov_unit_zero (S := S1x4096) _ hz]
  simp only [View.readAt_eq_ld, h1.read_unread, View.ld_unit_zero (S := S512x4096) hz, View.ld_unit_zero (S := S1x4096) hz]

/-- The first point, second output: the squares payload of the tile and the zero row. -/
theorem first_sq (c : Dev nD) (i : grid0.Coords) (a1 : Memref sig .tc .vmem S512x4096 .f32) (h1 : a1.IsWhole)
    (a2 : Memref sig .tc .vmem S1x4096 .f32) (h2 : a2.IsWhole) (a3 : Memref sig .tc .vmem S1x4096 .f32) (h3 : a3.IsWhole)
    (hc : cond0_0 i) (x : Vec F S512x4096 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x4096) hz, View.readCov_unit_zero (S := S1x4096) _ hz]
  simp only [View.readAt_eq_ld, h1.read_unread, View.ld_unit_zero (S := S512x4096) hz, View.ld_unit_zero (S := S1x4096) hz]

end Pieces

/-! ## The payloads at an index, over the extended reals -/

/-- The lane sum over a tile's 512 rows, cast to a row: column `k` holds the sum of the tile's column `k`. -/
theorem tile_colsum (x : FVec Ideal S512x4096 .f32) (u : Fin 1) (k : Fin 4096) :
    shapeCast S1x4096 (multiReduction (F := Ideal) .add [0] S4096 x 0x00000000#32 reduces_S512x4096_S4096 (.inl rfl) rfl)
      shapeCasts_S4096_S1x4096 (ix2 u k) = ∑ q : Fin 512, x (ix2 q k) := by
  refine (shapeCast_a_1a_apply _ shapeCasts_S4096_S1x4096 u k).trans ?_
  refine (Ideal.multiReduction_add_single x 0x00000000#32 reduces_S512x4096_S4096 (.inl rfl) rfl (ix1 k)).trans ?_
  refine Finset.sum_congr rfl fun q _ => congrArg x (funext fun a => Fin.ext ?_)
  match a with
  | ⟨0, _⟩ => rfl
  | ⟨1, _⟩ => rfl

/-- The sum payload at column `k`: what the row held there plus the tile's column sum. -/
theorem sum_payload_apply (x : FVec Ideal S512x4096 .f32) (acc : FVec Ideal S1x4096 .f32) (u : Fin 1) (k : Fin 4096) :
    k0_pay3 (F := Ideal) x acc (ix2 u k) = acc (ix2 u k) + ∑ q : Fin 512, x (ix2 q k) := by
  unfold k0_pay3
  show shapeCast S1x4096 acc shapeCasts_S1x4096_S1x4096 (ix2 u k) + _ = _
  rw [shapeCast_self]
  exact congrArg (acc (ix2 u k) + ·) (tile_colsum x u k)

/-- The squares payload at column `k`: what the row held there plus the tile's column sum of squares. -/
theorem sq_payload_apply (x : FVec Ideal S512x4096 .f32) (acc : FVec Ideal S1x4096 .f32) (u : Fin 1) (k : Fin 4096) :
    k0_pay4 (F := Ideal) x acc (ix2 u k) = acc (ix2 u k) + ∑ q : Fin 512, x (ix2 q k) * x (ix2 q k) := by
  unfold k0_pay4
  show shapeCast S1x4096 acc shapeCasts_S1x4096_S1x4096 (ix2 u k) + _ = _
  rw [shapeCast_self]
  exact congrArg (acc (ix2 u k) + ·) (tile_colsum (mulf x x) u k)

/-! ## The running rows, point by point (any float instance) -/

section Running
variable {F : FTy → Type} [FloatOps F]
variable (V : (c : Dev nD) → (b : Ref sig .tc) → Buf (Elt F) ((c : Thread nD τ).loc b))

/-- Point `t`'s tile of the data: the input window's block, at its literal type. -/
abbrev tile (c : Dev nD) (t : Fin cfg0.N) : Vec F S512x4096 .f32 := iblk0 V c 0 t

/-- The sums row after point `n`: the sum payload of tile `n` over what the point before left, from the zero row. -/
def sumRow (c : Dev nD) : (n : ℕ) → n < cfg0.N → Vec F S1x4096 .f32
  | 0, h => k0_pay3 (tile V c ⟨0, h⟩) (k0_pay1 (F := F))
  | n + 1, h => k0_pay3 (tile V c ⟨n + 1, h⟩) (sumRow c n (Nat.lt_of_succ_lt h))

/-- The squares row after point `n`, likewise. -/
def sqRow (c : Dev nD) : (n : ℕ) → n < cfg0.N → Vec F S1x4096 .f32
  | 0, h => k0_pay4 (tile V c ⟨0, h⟩) (k0_pay2 (F := F))
  | n + 1, h => k0_pay4 (tile V c ⟨n + 1, h⟩) (sqRow c n (Nat.lt_of_succ_lt h))

/-- What the two outputs' buffers hold after point `n` is the pair of running rows: by induction on the point. -/
theorem outsAt_eq (c : Dev nD) : ∀ (n : ℕ) (h : n < cfg0.N), outsAt0 V c n h = (sumRow V c n h, sqRow V c n h)
  | 0, h => by
    rw [outsAt0_A V c ⟨0, h⟩ rfl, first_sum, first_sq]
    rfl
  | n + 1, h => by
    have hN : cfg0.N = 8 := N_0
    have hB : ¬(⟨n + 1, h⟩ : Fin cfg0.N).val % 8 = 0 := by dsimp only; omega
    rw [outsAt0_B V c ⟨n + 1, h⟩ hB, later_sum, later_sq]
    show (k0_pay3 _ (outsAt0 V c n _).1, k0_pay4 _ (outsAt0 V c n _).2) = _
    rw [outsAt_eq c n]
    rfl

end Running

/-! ## The rows as sums over the tiles seen so far, over the extended reals -/

section Values
variable (V : (c : Dev nD) → (b : Ref sig .tc) → Buf (Elt Ideal) ((c : Thread nD τ).loc b))

/-- The data array as the region finds it, at its literal type. -/
abbrev data (c : Dev nD) : FVec Ideal S4096x4096 .f32 := V c main_arg0

/-- The input window's block index at point `t` is `(t, 0)`: decided over the grid. -/
theorem tile_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Tile `n`'s element `(q, k)` is the data's element `(512 n + q, k)`. -/
theorem tile_apply (c : Dev nD) (n : ℕ) (hn : n < cfg0.N) (h8 : n < 8) (q : Fin 512) (k : Fin 4096) :
    tile V c ⟨n, hn⟩ (ix2 q k) = data V c (ix2 (tileRow ⟨n, h8⟩ q) k) := by
  show iblk0 V c 0 ⟨n, hn⟩ (ix2 q k) = V c main_arg0 _
  unfold iblk0
  rw [View.read_apply]
  show V c main_arg0 _ = V c main_arg0 _
  congr 1
  funext a
  apply Fin.ext
  match a with
  | ⟨0, _⟩ =>
    show win0_0.index ⟨n, hn⟩ 0 * 512 + 1 * q.val = 512 * n + q.val
    have e : win0_0.index ⟨n, hn⟩ 0 = n := (tile_index ⟨n, hn⟩).1
    rw [e]; omega
  | ⟨1, _⟩ =>
    show win0_0.index ⟨n, hn⟩ 1 * 4096 + 1 * k.val = k.val
    have e : win0_0.index ⟨n, hn⟩ 1 = 0 := (tile_index ⟨n, hn⟩).2
    rw [e]; omega

/-- After point `n` the sums row holds, at column `k`, zero plus the column sums of tiles `0 … n`. -/
theorem sumRow_apply (c : Dev nD) : ∀ (n : ℕ) (h : n < cfg0.N) (u : Fin 1) (k : Fin 4096),
    sumRow V c n h (ix2 u k) = zero + ∑ s ∈ Finset.range (n + 1), tileSum (fun r => data V c (ix2 r k)) s
  | 0, h, u, k => by
    rw [sumRow, sum_payload_apply, Finset.sum_range_one]
    refine congrArg (zero + ·) ?_
    unfold tileSum
    rw [dif_pos (by decide : 0 < 8)]
    exact Finset.sum_congr rfl fun q _ => tile_apply V c 0 h (by decide) q k
  | n + 1, h, u, k => by
    have h8 : n + 1 < 8 := lt_of_lt_of_eq h N_0
    rw [sumRow, sum_payload_apply, sumRow_apply c n (Nat.lt_of_succ_lt h) u k, Finset.sum_range_succ _ (n + 1), add_assoc]
    refine congrArg (zero + ·) (congrArg (_ + ·) ?_)
    unfold tileSum
    rw [dif_pos h8]
    exact Finset.sum_congr rfl fun q _ => tile_apply V c (n + 1) h h8 q k

/-- After point `n` the squares row holds, at column `k`, zero plus the column sums of squares of tiles `0 … n`. -/
theorem sqRow_apply (c : Dev nD) : ∀ (n : ℕ) (h : n < cfg0.N) (u : Fin 1) (k : Fin 4096),
    sqRow V c n h (ix2 u k)
      = zero + ∑ s ∈ Finset.range (n + 1), tileSum (fun r => data V c (ix2 r k) * data V c (ix2 r k)) s
  | 0, h, u, k => by
    rw [sqRow, sq_payload_apply, Finset.sum_range_one]
    refine congrArg (zero + ·) ?_
    unfold tileSum
    rw [dif_pos (by decide : 0 < 8)]
    exact Finset.sum_congr rfl fun q _ => by rw [tile_apply V c 0 h (by decide) q k]
  | n + 1, h, u, k => by
    have h8 : n + 1 < 8 := lt_of_lt_of_eq h N_0
    rw [sqRow, sq_payload_apply, sqRow_apply c n (Nat.lt_of_succ_lt h) u k, Finset.sum_range_succ _ (n + 1), add_assoc]
    refine congrArg (zero + ·) (congrArg (_ + ·) ?_)
    unfold tileSum
    rw [dif_pos h8]
    exact Finset.sum_congr rfl fun q _ => by rw [tile_apply V c (n + 1) h h8 q k]

/-- The row of column sums of the data, as contents of the first result array. -/
def sums (c : Dev nD) : Buf (Elt Ideal) ((c : Thread nD τ).loc main_v0_0) :=
  fun y => colSum (data V c) ⟨(y 1).val, (y 1).isLt⟩

/-- The row of column sums of squares of the data, as contents of the second result array. -/
def squares (c : Dev nD) : Buf (Elt Ideal) ((c : Thread nD τ).loc main_v0_1) :=
  fun y => colSq (data V c) ⟨(y 1).val, (y 1).isLt⟩

/-- After the last point the sums row is the row of column sums. -/
theorem sumRow_last (c : Dev nD) (n : ℕ) (h : n < cfg0.N) (hn : n = 7) : sumRow V c n h = sums V c := by
  subst hn
  funext y
  obtain ⟨u, k, rfl⟩ : ∃ (u : Fin 1) (k : Fin 4096), y = ix2 u k := ⟨y 0, y 1, eq_ix2 y⟩
  rw [sumRow_apply V c 7 h u k]
  show _ = zero + ∑ r : Fin 4096, data V c (ix2 r k)
  rw [sum_rows_eq_sum_tiles]

/-- After the last point the squares row is the row of column sums of squares. -/
theorem sqRow_last (c : Dev nD) (n : ℕ) (h : n < cfg0.N) (hn : n = 7) : sqRow V c n h = squares V c := by
  subst hn
  funext y
  obtain ⟨u, k, rfl⟩ : ∃ (u : Fin 1) (k : Fin 4096), y = ix2 u k := ⟨y 0, y 1, eq_ix2 y⟩
  rw [sqRow_apply V c 7 h u k]
  show _ = zero + ∑ r : Fin 4096, data V c (ix2 r k) * data V c (ix2 r k)
  rw [sum_rows_eq_sum_tiles]

/-! ## The two result arrays after the region -/

/-- The one write-back of the first result, at the last point, writes the row of column sums: its block is the array. -/
theorem flushed_sums (c : Dev nD) (t : Fin cfg0.N) (hf : (cfg0.win 1).flush t = true) :
    (dat0 V c).flushed 1 t = ((cfg0.win 1).blk t).view.read (Elt Ideal) (sums V c) := by
  have hN : cfg0.N = 8 := N_0
  have h7 : t.val = 7 := by have := (flush0_1 t).mp hf; have := t.isLt; omega
  obtain rfl : t = t0_7 := Fin.ext h7
  show (cfg0.win 1).cut (grid0.coords t0_7) ((dat0 V c).after 1 t0_7) = _
  rw [after0_1, outsAt_eq]
  show (cfg0.win 1).cut (grid0.coords t0_7) (sumRow V c t0_7.val t0_7.isLt) = _
  rw [sumRow_last V c t0_7.val t0_7.isLt rfl]
  have hz' : (fun a => win0_1.index t0_7 a * main_v0_0.ty.shape.size a) = fun _ => 0 := funext fun a => by fin_cases a <;> decide
  exact (Memref.read_access_unit_zero (Elt Ideal) main_v0_0 hz' (fun a => by rw [congrFun hz' a]; simp) (sums V c)).symm

/-- Likewise the second result's, the row of column sums of squares. -/
theorem flushed_squares (c : Dev nD) (t : Fin cfg0.N) (hf : (cfg0.win 2).flush t = true) :
    (dat0 V c).flushed 2 t = ((cfg0.win 2).blk t).view.read (Elt Ideal) (squares V c) := by
  have hN : cfg0.N = 8 := N_0
  have h7 : t.val = 7 := by have := (flush0_2 t).mp hf; have := t.isLt; omega
  obtain rfl : t = t0_7 := Fin.ext h7
  show (cfg0.win 2).cut (grid0.coords t0_7) ((dat0 V c).after 2 t0_7) = _
  rw [after0_2, outsAt_eq]
  show (cfg0.win 2).cut (grid0.coords t0_7) (sqRow V c t0_7.val t0_7.isLt) = _
  rw [sqRow_last V c t0_7.val t0_7.isLt rfl]
  have hz' : (fun a => win0_2.index t0_7 a * main_v0_1.ty.shape.size a) = fun _ => 0 := funext fun a => by fin_cases a <;> decide
  exact (Memref.read_access_unit_zero (Elt Ideal) main_v0_1 hz' (fun a => by rw [congrFun hz' a]; simp) (squares V c)).symm

/-- After the region the first result array holds the row of column sums: the last point's block covers it. -/
theorem final_sums (c : Dev nD) : (dat0 V c).arrAt 1 cfg0.N = sums V c :=
  (dat0 V c).arrAt_eq_of_cover 1 (sums V c) (flushed_sums V c) fun i =>
    ⟨t0_7, (flush0_1 t0_7).mpr rfl, by
      show i ∈ ((View.whole main_v0_0).slice (win0_1.rect t0_7)).set
      rw [View.set_slice_whole, Rect.mem_set_unit]
      intro a
      have h0 : (i 0 : Nat) < 1 := (i 0).isLt
      have h1 : (i 1 : Nat) < 4096 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 1 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 4096 from by decide +kernel]; omega⟩

/-- After the region the second result array holds the row of column sums of squares. -/
theorem final_squares (c : Dev nD) : (dat0 V c).arrAt 2 cfg0.N = squares V c :=
  (dat0 V c).arrAt_eq_of_cover 2 (squares V c) (flushed_squares V c) fun i =>
    ⟨t0_7, (flush0_2 t0_7).mpr rfl, by
      show i ∈ ((View.whole main_v0_1).slice (win0_2.rect t0_7)).set
      rw [View.set_slice_whole, Rect.mem_set_unit]
      intro a
      have h0 : (i 0 : Nat) < 1 := (i 0).isLt
      have h1 : (i 1 : Nat) < 4096 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 4096 from by decide +kernel]; omega⟩

end Values

end Cert.KernelIdeal.Stats

end
-- ==== Proof.MainValue.lean ====
/-
  The second pallas_call's result, from whatever arrays the region finds in its five input windows: data `x`
  (4096 × 4096), a sums row `s` and a squares row `q` (each 1 × 4096), weights `w` (64 × 4096) and a bias row `b`
  (1 × 64). Grid point `t` sees rows `256 t … 256 t + 255` of `x` and the other four arrays whole, and writes rows
  `256 t … 256 t + 255` of the result:
    out (i, o) = ∑ k, log (sqrt (max (q k − (2 · x (i, k)) · s k + 4096 · x (i, k)², 0)) + ε) · w (o, k) + b o.
  The body's matrix product contracts the log-distances (narrowed to bf16, the identity over the extended reals)
  with the transposed weights into a zero accumulator: at an entry it is the plain sum over `k`. The sixteen
  blocks are disjoint row bands that together cover the result array.
-/
import proofs.«147592_j21766894256326_1_alg».proof.Proof.Gen.KernelIdeal.Frame
import proofs.«147592_j21766894256326_1_alg».proof.Proof.ColumnStats
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Project

open Cert.KernelIdeal Cert.KernelIdeal.Gen Cert.LogDist
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The body's matrix product at an entry -/

theorem lhs_axis0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem lhs_axis1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
theorem rhs_axis0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
theorem rhs_axis1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- A 256 × 4096 by 4096 × 64 product into the zero accumulator: entry `(p, o)` is `∑ k, l (p, k) · r (k, o)`. -/
theorem product_apply (l : FVec Ideal S256x4096 .bf16) (r : FVec Ideal S4096x64 .bf16) (p : Fin 256) (o : Fin 64) :
    matmul (F := Ideal) dot_S256x4096_S4096x64_S256x64_1_0_0_1_n_n none l r (constant S256x64 .f32 0x00000000#32) (ix2 p o)
      = ∑ k : Fin 4096, l (ix2 p k) * r (ix2 k o) := by
  simp only [matmul]
  rw [Ideal.matmul_constant_zero_apply, ← Equiv.sum_comp (contrEquiv1 dot_S256x4096_S4096x64_S256x64_1_0_0_1_n_n 4096 rfl rfl).symm]
  refine Finset.sum_congr rfl fun k _ => ?_
  have hk := contrEquiv1_symm_val dot_S256x4096_S4096x64_S256x64_1_0_0_1_n_n 4096 rfl rfl k
  have el : dot_S256x4096_S4096x64_S256x64_1_0_0_1_n_n.lhsIdx (ix2 p o) ((contrEquiv1 dot_S256x4096_S4096x64_S256x64_1_0_0_1_n_n 4096 rfl rfl).symm k) = ix2 p k := funext fun a => Fin.ext (by
    match a with
    | ⟨0, _⟩ => exact lhs_axis0 _ _
    | ⟨1, _⟩ => exact (lhs_axis1 _ _).trans hk)
  have er : dot_S256x4096_S4096x64_S256x64_1_0_0_1_n_n.rhsIdx (ix2 p o) ((contrEquiv1 dot_S256x4096_S4096x64_S256x64_1_0_0_1_n_n 4096 rfl rfl).symm k) = ix2 k o := funext fun a => Fin.ext (by
    match a with
    | ⟨0, _⟩ => exact (rhs_axis0 _ _).trans hk
    | ⟨1, _⟩ => exact rhs_axis1 _ _)
  rw [el, er]

/-! ## The body's one store at an entry -/

/-- The stored block at `(p, o)`, from the five loaded blocks: the sum over `k` of the log-distance at `(p, k)` times
    the weight at `(o, k)`, plus the bias at `o`. -/
theorem store_apply (x : FVec Ideal S256x4096 .f32) (s q : FVec Ideal S1x4096 .f32) (w : FVec Ideal S64x4096 .f32)
    (b : FVec Ideal S1x64 .f32) (p : Fin 256) (o : Fin 64) :
    k1_pay1 (F := Ideal) x s q w b (ix2 p o)
      = (∑ k : Fin 4096, logOf (q (ix2 (0 : Fin 1) k)) (s (ix2 (0 : Fin 1) k)) (x (ix2 p k)) * w (ix2 o k))
        + b (ix2 (0 : Fin 1) o) := by
  unfold k1_pay1
  dsimp only
  rw [shapeCast_self, shapeCast_self, shapeCast_self]
  refine (addf_apply _ _ _).trans ?_
  rw [product_apply, broadcastTo_1b_ab_apply]
  refine congrArg (· + b (ix2 (0 : Fin 1) o)) (Finset.sum_congr rfl fun k _ => ?_)
  rw [transpose_ix2_apply]
  refine congrArg (· * w (ix2 o k)) ?_
  show Ideal.log (Ideal.sqrt (max (broadcastTo S256x4096 q broadcasts_S1x4096_S256x4096 (ix2 p k)
      - two * x (ix2 p k) * broadcastTo S256x4096 s broadcasts_S1x4096_S256x4096 (ix2 p k)
      + rows * (x (ix2 p k) * x (ix2 p k))) zero) + eps) = _
  rw [broadcastTo_1b_ab_apply, broadcastTo_1b_ab_apply]
  rfl

/-! ## The region's result array -/

section Region
variable (V : (c : Dev nD) → (b : Ref sig .tc) → Buf (Elt Ideal) ((c : Thread nD τ).loc b))

/-- The five arrays the region reads, as it finds them, at their literal types. -/
abbrev xs (c : Dev nD) : FVec Ideal S4096x4096 .f32 := V c main_arg0
abbrev ss (c : Dev nD) : FVec Ideal S1x4096 .f32 := V c main_v0_0
abbrev qs (c : Dev nD) : FVec Ideal S1x4096 .f32 := V c main_v0_1
abbrev ws (c : Dev nD) : FVec Ideal S64x4096 .f32 := V c main_arg1
abbrev bs (c : Dev nD) : FVec Ideal S1x64 .f32 := V c main_v1

/-- What the result array ends holding: at `(i, o)` the sum over `k` of the log-distance at `(i, k)`, from the sums
    and squares rows, times the weight at `(o, k)`, plus the bias at `o`. -/
def result (c : Dev nD) : FVec Ideal S4096x64 .f32 := fun j =>
  (∑ k : Fin 4096, logOf (qs V c (ix2 (0 : Fin 1) k)) (ss V c (ix2 (0 : Fin 1) k)) (xs V c (ix2 (j 0 : Fin 4096) k))
      * ws V c (ix2 (j 1 : Fin 64) k))
    + bs V c (ix2 (0 : Fin 1) (j 1 : Fin 64))

/-- The windows' block indices at point `t`: the data and the result move with the point along the rows, the other
    four windows stay at their one block. Decided over the grid. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0)

/-- The data block at point `t`: its row `p` is the data's row `256 t + p`. -/
theorem x_block (c : Dev nD) (t : Fin cfg1.N) (p : Fin 256) (k : Fin 4096) (r : Fin 4096) (hr : r.val = 256 * t.val + p.val) :
    (iblk1 V c 0 t : FVec Ideal S256x4096 .f32) (ix2 p k) = xs V c (ix2 r k) := by
  unfold iblk1
  rw [View.read_apply]
  show V c main_arg0 _ = V c main_arg0 _
  congr 1
  funext a
  apply Fin.ext
  obtain ⟨e0, e1, -⟩ := block_index t
  match a with
  | ⟨0, _⟩ =>
    show win1_0.index t 0 * 256 + 1 * p.val = r.val
    rw [e0]; omega
  | ⟨1, _⟩ =>
    show win1_0.index t 1 * 4096 + 1 * k.val = k.val
    rw [e1]; omega

/-- The sums row's block at any point is the row. -/
theorem s_block (c : Dev nD) (t : Fin cfg1.N) (u : Fin 1) (k : Fin 4096) :
    (iblk1 V c 1 t : FVec Ideal S1x4096 .f32) (ix2 u k) = ss V c (ix2 u k) := by
  unfold iblk1
  rw [View.read_apply]
  show V c main_v0_0 _ = V c main_v0_0 _
  congr 1
  funext a
  apply Fin.ext
  obtain ⟨-, -, e0, e1, -⟩ := block_index t
  match a with
  | ⟨0, _⟩ =>
    show win1_1.index t 0 * 1 + 1 * u.val = u.val
    rw [e0]; omega
  | ⟨1, _⟩ =>
    show win1_1.index t 1 * 4096 + 1 * k.val = k.val
    rw [e1]; omega

/-- The squares row's block at any point is the row. -/
theorem q_block (c : Dev nD) (t : Fin cfg1.N) (u : Fin 1) (k : Fin 4096) :
    (iblk1 V c 2 t : FVec Ideal S1x4096 .f32) (ix2 u k) = qs V c (ix2 u k) := by
  unfold iblk1
  rw [View.read_apply]
  show V c main_v0_1 _ = V c main_v0_1 _
  congr 1
  funext a
  apply Fin.ext
  obtain ⟨-, -, -, -, e0, e1, -⟩ := block_index t
  match a with
  | ⟨0, _⟩ =>
    show win1_2.index t 0 * 1 + 1 * u.val = u.val
    rw [e0]; omega
  | ⟨1, _⟩ =>
    show win1_2.index t 1 * 4096 + 1 * k.val = k.val
    rw [e1]; omega

/-- The weights' block at any point is the whole matrix. -/
theorem w_block (c : Dev nD) (t : Fin cfg1.N) (o : Fin 64) (k : Fin 4096) (o' : Fin 64) (ho : o'.val = o.val) :
    (iblk1 V c 3 t : FVec Ideal S64x4096 .f32) (ix2 o k) = ws V c (ix2 o' k) := by
  unfold iblk1
  rw [View.read_apply]
  show V c main_arg1 _ = V c main_arg1 _
  congr 1
  funext a
  apply Fin.ext
  obtain ⟨-, -, -, -, -, -, e0, e1, -⟩ := block_index t
  match a with
  | ⟨0, _⟩ =>
    show win1_3.index t 0 * 64 + 1 * o.val = o'.val
    rw [e0]; omega
  | ⟨1, _⟩ =>
    show win1_3.index t 1 * 4096 + 1 * k.val = k.val
    rw [e1]; omega

/-- The bias row's block at any point is the row. -/
theorem b_block (c : Dev nD) (t : Fin cfg1.N) (u : Fin 1) (o : Fin 64) (o' : Fin 64) (ho : o'.val = o.val) :
    (iblk1 V c 4 t : FVec Ideal S1x64 .f32) (ix2 u o) = bs V c (ix2 u o') := by
  unfold iblk1
  rw [View.read_apply]
  show V c main_v1 _ = V c main_v1 _
  congr 1
  funext a
  apply Fin.ext
  obtain ⟨-, -, -, -, -, -, -, -, e0, e1, -⟩ := block_index t
  match a with
  | ⟨0, _⟩ =>
    show win1_4.index t 0 * 1 + 1 * u.val = u.val
    rw [e0]; omega
  | ⟨1, _⟩ =>
    show win1_4.index t 1 * 64 + 1 * o.val = o'.val
    rw [e1]; omega

/-- What point `t` writes back is its block of `result`. -/
theorem flushed_result (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S256x4096) hz, View.ld_unit_zero (S := S1x4096) hz,
    View.ld_unit_zero (S := S64x4096) hz, View.ld_unit_zero (S := S1x64) hz]
  funext y
  obtain ⟨p, o, rfl⟩ : ∃ (p : Fin 256) (o : Fin 64), y = ix2 p o := ⟨y 0, y 1, eq_ix2 y⟩
  refine (store_apply (iblk1 V c 0 t) (iblk1 V c 1 t) (iblk1 V c 2 t) (iblk1 V c 3 t) (iblk1 V c 4 t) p o).trans ?_
  rw [View.read_apply]
  obtain ⟨-, -, -, -, -, -, -, -, -, -, e0, e1⟩ := block_index t
  have hp : p.val < 256 := p.isLt
  have ht : t.val < 16 := lt_of_lt_of_eq t.isLt N_1
  have h0 : ((((cfg1.win 5).blk t).view.emb (ix2 p o)) 0 : Fin 4096).val = 256 * t.val + p.val := by
    show win1_5.index t 0 * 256 + 1 * p.val = _
    rw [e0]; omega
  have h1 : ((((cfg1.win 5).blk t).view.emb (ix2 p o)) 1 : Fin 64).val = o.val := by
    show win1_5.index t 1 * 64 + 1 * o.val = _
    rw [e1]; omega
  show _ = result V c (((cfg1.win 5).blk t).view.emb (ix2 p o))
  unfold result
  refine congrArg₂ (· + ·) (Finset.sum_congr rfl fun k _ => ?_) ?_
  · rw [x_block V c t p k _ h0, s_block, q_block, w_block V c t o k _ h1]
  · rw [b_block V c t (0 : Fin 1) o _ h1]

/-- An index of the result array is in point `t`'s block iff each coordinate is in the block's range on its axis. -/
theorem mem_block (t : Fin cfg1.N) (i : S4096x64.Idx) :
    i ∈ ((cfg1.win 5).blk t).view.set ↔ ∀ a : Fin 2, win1_5.index t a * S256x64.size a ≤ (i a).val ∧ (i a).val < win1_5.index t a * S256x64.size a + S256x64.size a := by
  show i ∈ ((View.whole main_v2).slice (win1_5.rect t)).set ↔ _
  rw [View.set_slice_whole, Rect.mem_set_unit]
  exact Iff.rfl

/-- After the region the result array holds `result`: row `i` is in the block of point `i / 256`. -/
theorem final_result (c : Dev nD) : (dat1 V c).arrAt 5 cfg1.N = result V c :=
  (dat1 V c).arrAt_eq_of_cover 5 (result V c) (fun t _ => flushed_result V c t) fun i => by
    have hi0 : (i 0).val < 4096 := (i 0).isLt
    have hi1 : (i 1).val < 64 := (i 1).isLt
    have hN : cfg1.N = 16 := N_1
    have hlt : (i 0).val / 256 < cfg1.N := by rw [hN]; omega
    refine ⟨⟨(i 0).val / 256, hlt⟩, flush1_5 _, ?_⟩
    rw [mem_block]
    obtain ⟨-, -, -, -, -, -, -, -, -, -, e0, e1⟩ := block_index ⟨(i 0).val / 256, hlt⟩
    have e0' : win1_5.index ⟨(i 0).val / 256, hlt⟩ 0 = (i 0).val / 256 := e0
    intro a
    match a with
    | ⟨0, _⟩ =>
      show win1_5.index ⟨(i 0).val / 256, hlt⟩ 0 * 256 ≤ (i 0).val ∧ (i 0).val < win1_5.index ⟨(i 0).val / 256, hlt⟩ 0 * 256 + 256
      rw [e0']; omega
    | ⟨1, _⟩ =>
      show win1_5.index ⟨(i 0).val / 256, hlt⟩ 1 * 64 ≤ (i 1).val ∧ (i 1).val < win1_5.index ⟨(i 0).val / 256, hlt⟩ 1 * 64 + 64
      rw [e1]; omega

end Region

end Cert.KernelIdeal.Project

end
-- ==== Proof.KernelValue.lean ====
/-
  The idealized kernel's result array as one function of its three arguments.

  At the last boundary the result array holds what the second region's write-backs leave; the second region finds
  the data and the weights as launched, the sums and squares rows as the first region left them, and the bias row as
  the one host `reshape` between the regions wrote it. The first region's rows are the column sums and the column
  sums of squares of the data, so the result is `Cert.LogDist.out` of the three arguments.
-/
import proofs.«147592_j21766894256326_1_alg».proof.Proof.KernelIdealRun
import proofs.«147592_j21766894256326_1_alg».proof.Proof.StatsValue
import proofs.«147592_j21766894256326_1_alg».proof.Proof.MainValue
import Idealize.ShloMosaic.Lib.StableHlo.Run
import Idealize.ShloMosaic.Lib.ValueLayout

noncomputable section

namespace Cert.KernelIdeal.Whole

open Cert.KernelIdeal Cert.KernelIdeal.Gen Cert.LogDist
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The second region finds the data as launched. -/
theorem entry_data (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)

/-- The second region finds the weights as launched. -/
theorem entry_weights (c : Dev nD) : V2 m ρ c main_arg1 = m ((c : Thread nD τ).loc main_arg1) :=
  ((W3_arr m ρ c 3).trans (((dat1 (V2 m ρ) c).arrAt_in 3 rfl _).trans (A_eq1 (V2 m ρ) c 3))).symm.trans (W3_main_arg1 m ρ c)

/-- The host stretch between the regions writes only the bias row: the sums row is as the first region left it. -/
theorem entry_sums (c : Dev nD) : V2 m ρ c main_v0_0 = Stats.sums (V0 m ρ) c :=
  calc W2 m ρ c (Proc.devRef .tc main_v0_0)
    _ = W1 m ρ c (Proc.devRef .tc main_v0_0) := StableHlo.after_of_forall_not_mem (b := Proc.devRef .tc main_v0_0) _ _ (List.forall_iff_forall_mem.mp (by
          simp only [hostOps1, List.Forall, StableHlo.reshape_writes, Finset.mem_singleton]
          exact StableHlo.devRef_ne_of_ne (by decide)))
    _ = (dat0 (V0 m ρ) c).arrAt 1 cfg0.N := W1_arr m ρ c 1
    _ = Stats.sums (V0 m ρ) c := Stats.final_sums (V0 m ρ) c

/-- Likewise the squares row. -/
theorem entry_squares (c : Dev nD) : V2 m ρ c main_v0_1 = Stats.squares (V0 m ρ) c :=
  calc W2 m ρ c (Proc.devRef .tc main_v0_1)
    _ = W1 m ρ c (Proc.devRef .tc main_v0_1) := StableHlo.after_of_forall_not_mem (b := Proc.devRef .tc main_v0_1) _ _ (List.forall_iff_forall_mem.mp (by
          simp only [hostOps1, List.Forall, StableHlo.reshape_writes, Finset.mem_singleton]
          exact StableHlo.devRef_ne_of_ne (by decide)))
    _ = (dat0 (V0 m ρ) c).arrAt 2 cfg0.N := W1_arr m ρ c 2
    _ = Stats.squares (V0 m ρ) c := Stats.final_squares (V0 m ρ) c

/-- The bias row the second region finds is the bias argument cast to one row. -/
theorem entry_bias (c : Dev nD) :
    (V2 m ρ c main_v1 : FVec Ideal S1x64 .f32) = shapeCast S1x64 (m ((c : Thread nD τ).loc main_arg2)) shapeCasts_S64_S1x64 := by
  show StableHlo.after hostOps1 (W1 m ρ c) (Proc.devRef .tc main_v1) = _
  after_results
  funext i
  show shapeCast S1x64 (W1 m ρ c (Proc.devRef .tc main_arg2)) shapeCasts_S64_S1x64 i = _
  rw [W1_of_ne m ρ c main_arg2 (by decide)]

/-- The result array at the last boundary is `out` of the three arguments as launched. -/
theorem result_eq (c : Dev nD) :
    W3 m ρ c (Proc.devRef .tc main_v2)
      = out (m ((c : Thread nD τ).loc main_arg0)) (m ((c : Thread nD τ).loc main_arg1)) (m ((c : Thread nD τ).loc main_arg2)) := by
  refine (W3_arr m ρ c 5).trans ((Project.final_result (V2 m ρ) c).trans ?_)
  funext j
  obtain ⟨i, o, rfl⟩ : ∃ (i : Fin 4096) (o : Fin 64), j = ix2 i o := ⟨j 0, j 1, eq_ix2 j⟩
  unfold Project.result out logd
  refine congrArg₂ (· + ·) (Finset.sum_congr rfl fun k _ => ?_) ?_
  · have hq : Project.qs (V2 m ρ) c (ix2 (0 : Fin 1) k) = colSq (m ((c : Thread nD τ).loc main_arg0)) k :=
      congrFun (entry_squares m ρ c) (ix2 (0 : Fin 1) k)
    have hs : Project.ss (V2 m ρ) c (ix2 (0 : Fin 1) k) = colSum (m ((c : Thread nD τ).loc main_arg0)) k :=
      congrFun (entry_sums m ρ c) (ix2 (0 : Fin 1) k)
    have hx : Project.xs (V2 m ρ) c (ix2 i k) = m ((c : Thread nD τ).loc main_arg0) (ix2 i k) :=
      congrFun (entry_data m ρ c) (ix2 i k)
    have hw : Project.ws (V2 m ρ) c (ix2 o k) = m ((c : Thread nD τ).loc main_arg1) (ix2 o k) :=
      congrFun (entry_weights m ρ c) (ix2 o k)
    show logOf (Project.qs (V2 m ρ) c (ix2 (0 : Fin 1) k)) (Project.ss (V2 m ρ) c (ix2 (0 : Fin 1) k)) (Project.xs (V2 m ρ) c (ix2 i k))
        * Project.ws (V2 m ρ) c (ix2 o k) = _
    rw [hq, hs, hx, hw]
  · have hb : Project.bs (V2 m ρ) c (ix2 (0 : Fin 1) o)
        = shapeCast S1x64 (m ((c : Thread nD τ).loc main_arg2)) shapeCasts_S64_S1x64 (ix2 (0 : Fin 1) o) :=
      congrFun (entry_bias m ρ c) (ix2 (0 : Fin 1) o)
    show Project.bs (V2 m ρ) c (ix2 (0 : Fin 1) o) = _
    rw [hb]
    exact shapeCast_a_1a_apply _ shapeCasts_S64_S1x64 (0 : Fin 1) o

end Cert.KernelIdeal.Whole

end
-- ==== Proof.ReferenceValue.lean ====
/-
  The reference program's result, read one operation at a time, is the function `Cert.LogDist.out` of its three
  arguments: its two `reduce`s along the row axis are the column sums from the zero word, every broadcast reads the
  one row or the one scalar it replicates, and its `dot_general` against the transposed weights is the plain sum
  over the contracted column index.
-/
import proofs.«147592_j21766894256326_1_alg».proof.Proof.Gen.ReferenceIdeal.Run
import proofs.«147592_j21766894256326_1_alg».proof.Proof.Gen.ReferenceIdeal.Read
import proofs.«147592_j21766894256326_1_alg».proof.Proof.ColumnStats
import Idealize.ShloMosaic.Lib.ValueIdx

noncomputable section

namespace Cert.ReferenceIdeal.RefValue

open Cert.ReferenceIdeal Cert.ReferenceIdeal.Gen Cert.ReferenceIdeal.Read Cert.LogDist
open Idealize.ShloMosaic Idealize.ShloMosaic.ValueIdx

/-- The first `reduce` at column `k`: the column sum. -/
theorem reduce_rows (x0 : (⟨S4096x4096, .f32⟩ : BufTy).Contents (Elt Ideal)) (k : Fin 4096) :
    val_main_v0 (F := Ideal) x0 (ix1 k) = colSum x0 k := by
  rw [val_main_v0_apply]
  unfold colSum
  refine congrArg (zero + ·) (Finset.sum_congr rfl fun r _ => congrArg x0 (funext fun a => ?_))
  match a with
  | ⟨0, _⟩ => rfl
  | ⟨1, _⟩ => rfl

/-- The second `reduce`, of the squares, at column `k`: the column sum of squares. -/
theorem reduce_rows_sq (x0 : (⟨S4096x4096, .f32⟩ : BufTy).Contents (Elt Ideal)) (k : Fin 4096) :
    val_main_v2 (F := Ideal) x0 (ix1 k) = colSq x0 k := by
  rw [val_main_v2_apply]
  unfold colSq
  refine congrArg (zero + ·) (Finset.sum_congr rfl fun r _ => ?_)
  rw [val_main_v1_apply]
  have e : idx_main_v2 (ix1 k) r = ix2 r k := funext fun a => by
    match a with
    | ⟨0, _⟩ => rfl
    | ⟨1, _⟩ => rfl
  rw [e]
  rfl

/-- The log-distance stage at `(i, k)`. -/
theorem log_stage (x0 : (⟨S4096x4096, .f32⟩ : BufTy).Contents (Elt Ideal)) (i k : Fin 4096) :
    val_main_v20 (F := Ideal) x0 (ix2 i k) = logd x0 i k := by
  have e3 : idx_main_v3 (idx_main_v9 (ix2 i k)) = ix1 k := funext fun a => by
    match a with
    | ⟨0, _⟩ => rfl
  have e6 : idx_main_v6 (idx_main_v7 (ix2 i k)) = ix1 k := funext fun a => by
    match a with
    | ⟨0, _⟩ => rfl
  rw [val_main_v20_apply, val_main_v19_apply, val_main_v17_apply, val_main_v16_apply, val_main_v14_apply,
    val_main_v10_apply, val_main_v9_apply, val_main_v3_apply, val_main_v8_apply, val_main_v5_apply, val_main_v7_apply,
    val_main_v6_apply, val_main_v13_apply, val_main_v11_apply, val_main_v4_apply, val_main_v12_apply,
    val_main_v15_apply, val_main_v18_apply, e3, e6, reduce_rows, reduce_rows_sq]
  rfl

/-- The reference's result is `out` of its arguments. -/
theorem result_eq (x0 : (⟨S4096x4096, .f32⟩ : BufTy).Contents (Elt Ideal)) (x1 : (⟨S64x4096, .f32⟩ : BufTy).Contents (Elt Ideal))
    (x2 : (⟨S64, .f32⟩ : BufTy).Contents (Elt Ideal)) :
    val_main_v25 (F := Ideal) x0 x1 x2 = out x0 x1 x2 := by
  funext j
  obtain ⟨i, o, rfl⟩ : ∃ (i : Fin 4096) (o : Fin 64), j = ix2 i o := ⟨j 0, j 1, eq_ix2 j⟩
  rw [val_main_v25_apply, val_main_v22_apply, val_main_v24_apply, val_main_v23_apply]
  have eb : idx_main_v23 (idx_main_v24 (ix2 i o)) = ix1 o := funext fun a => by
    match a with
    | ⟨0, _⟩ => rfl
  rw [eb]
  unfold out
  refine congrArg (· + x2 (ix1 o)) (Finset.sum_congr rfl fun k _ => ?_)
  have el : lidx_main_v22 (ix2 i o) k = ix2 i k := funext fun a => by
    match a with
    | ⟨0, _⟩ => rfl
    | ⟨1, _⟩ => rfl
  have er : idx_main_v21 (ridx_main_v22 (ix2 i o) k) = ix2 o k := funext fun a => by
    match a with
    | ⟨0, _⟩ => rfl
    | ⟨1, _⟩ => rfl
  rw [val_main_v21_apply, el, er, log_stage]

end Cert.ReferenceIdeal.RefValue

end
-- ==== Proof.lean ====
/-
  The kernel and its reference compute, over the extended reals, one function of the data `x` (4096 × 4096), the
  weights `W` (64 × 4096) and the bias `b` (64):
    out (i, o) = ∑ k, log (sqrt (max (Q k − (2 · x (i, k)) · S k + 4096 · x (i, k)², 0)) + ε) · W (o, k) + b o,
  with `S k = 0 + ∑ r, x (r, k)` and `Q k = 0 + ∑ r, x (r, k)²` the column sums and the column sums of squares.

  The reference takes each column sum in one `reduce` over the 4096 rows. The kernel's first pallas_call takes it
  over eight tiles of 512 rows, adding each tile's column sums to a running row that it zeroes at the first grid
  point; its second pallas_call reads the two rows, forms the log-distances for 256 rows at a time and multiplies by
  the transposed weights (through bf16, the identity here) into a zero accumulator. Addition of extended reals is
  commutative and associative, so the tiled sum is the sum over all rows (`Cert.LogDist.sum_rows_eq_sum_tiles`);
  no other law is needed, the same four literal words stand on both sides, and the precondition is not used.

  The three frames are the generated runs; the idealization rewrote nothing, so `preserves` is `True`.
-/
import proofs.«147592_j21766894256326_1_alg».proof.Defs
import proofs.«147592_j21766894256326_1_alg».proof.Proof.Gen.Kernel
import proofs.«147592_j21766894256326_1_alg».proof.Proof.Gen.Kernel.Skeleton
import proofs.«147592_j21766894256326_1_alg».proof.Proof.Gen.Kernel.Launch
import proofs.«147592_j21766894256326_1_alg».proof.Proof.Gen.Kernel.Points
import proofs.«147592_j21766894256326_1_alg».proof.Proof.Gen.Kernel.Frame
import proofs.«147592_j21766894256326_1_alg».proof.Proof.Gen.KernelIdeal
import proofs.«147592_j21766894256326_1_alg».proof.Proof.Gen.KernelIdeal.Skeleton
import proofs.«147592_j21766894256326_1_alg».proof.Proof.Gen.KernelIdeal.Launch
import proofs.«147592_j21766894256326_1_alg».proof.Proof.Gen.KernelIdeal.Points
import proofs.«147592_j21766894256326_1_alg».proof.Proof.Gen.KernelIdeal.Frame
import proofs.«147592_j21766894256326_1_alg».proof.Proof.Gen.ReferenceIdeal
import proofs.«147592_j21766894256326_1_alg».proof.Proof.Gen.ReferenceIdeal.Run
import proofs.«147592_j21766894256326_1_alg».proof.Proof.Gen.ReferenceIdeal.Read
import proofs.«147592_j21766894256326_1_alg».proof.Proof.Gen.Pre_finite_inputs
import proofs.«147592_j21766894256326_1_alg».proof.Proof.KernelValue
import proofs.«147592_j21766894256326_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at `Cert.LogDist.out` of arguments that agree. -/
theorem algebraic : Cert.algebraic_KernelIdeal_ReferenceIdeal := by
  intro m ρ m' ρ' _ hagree
  refine ⟨fun c => Cert.LogDist.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Whole.result_eq m ρ c), (h c).2⟩)
      (Cert.KernelIdeal.GenRun.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, Cert.ReferenceIdeal.RefValue.result_eq, (hagree c).1, (hagree c).2.1,
      (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
